-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S8192x32 : Shape := ⟨2, ![8192, 32]⟩
abbrev S4096x4096 : Shape := ⟨2, ![4096, 4096]⟩
abbrev S32x32 : Shape := ⟨2, ![32, 32]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S8192x32 : S_.BroadcastsInDim S8192x32 (![] : Fin 0 → Fin S8192x32.rank)
  reducesTo_S8192x32_S_d0_1 : S8192x32.ReducesTo [0, 1] S_
  bcast_S_S4096x4096 : S_.BroadcastsInDim S4096x4096 (![] : Fin 0 → Fin S4096x4096.rank)
  reducesTo_S4096x4096_S_d0_1 : S4096x4096.ReducesTo [0, 1] S_
  bcast_S_S32x32 : S_.BroadcastsInDim S32x32 (![] : Fin 0 → Fin S32x32.rank)
  reducesTo_S32x32_S_d0_1 : S32x32.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_v13 : IVec S_ 1) (main_v16 : IVec S32x32 1) : IVec S_ 1 :=
  let main_c_5 : IVec S_ 1 := constantI S_ 1 1#1
  let main_v17 : IVec S_ 1 := (fun x v => Host.reduce IntOp.andi x v reducesTo_S32x32_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  main_v23

def fn {F : FTy → Type} [FloatOps F] (main_arg0 : FVec F S8192x4096 .f32) (main_arg1 : FVec F S8192x32 .f32) (main_arg2 : FVec F S4096x4096 .f32) (main_arg3 : FVec F S32x32 .f32) (main_arg4 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S8192x32 .f32 := Host.absf main_arg1
  let main_cst_0 : FVec F S_ .f32 := constant S_ .f32 0x7F800000#32
  let main_v5 : FVec F S8192x32 .f32 := broadcastInDim S8192x32 ![] bcast_S_S8192x32 main_cst_0
  let main_v6 : IVec S8192x32 1 := cmpf .olt main_v4 main_v5
  let main_c_1 : IVec S_ 1 := constantI S_ 1 1#1
  let main_v7 : IVec S_ 1 := (fun x v => Host.reduce IntOp.andi x v reducesTo_S8192x32_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S32x32 .f32 := Host.absf main_arg3
  let main_cst_4 : FVec F S_ .f32 := constant S_ .f32 0x7F800000#32
  let main_v15 : FVec F S32x32 .f32 := broadcastInDim S32x32 ![] bcast_S_S32x32 main_cst_4
  let main_v16 : IVec S32x32 1 := cmpf .olt main_v14 main_v15
  fn_part1 (F := F) main_arg4 main_v13 main_v16
-- ==== Kernel.lean ====
abbrev S8192x4096 : Shape := ⟨2, ![8192, 4096]⟩
abbrev S8192x32 : Shape := ⟨2, ![8192, 32]⟩
abbrev S4096x4096 : Shape := ⟨2, ![4096, 4096]⟩
abbrev S32x32 : Shape := ⟨2, ![32, 32]⟩
abbrev S4096 : Shape := ⟨1, ![4096]⟩
abbrev S1x4096 : Shape := ⟨2, ![1, 4096]⟩
abbrev S1024x128 : Shape := ⟨2, ![1024, 128]⟩
abbrev S1024x32 : Shape := ⟨2, ![1024, 32]⟩
abbrev S8x32 : Shape := ⟨2, ![8, 32]⟩
abbrev S1x1024 : Shape := ⟨2, ![1, 1024]⟩
abbrev S1024x1024 : Shape := ⟨2, ![1024, 1024]⟩
abbrev S1x32 : Shape := ⟨2, ![1, 32]⟩
abbrev S1024 : Shape := ⟨1, ![1024]⟩
abbrev S1024x1 : Shape := ⟨2, ![1024, 1]⟩
abbrev S8 : Shape := ⟨1, ![8]⟩
abbrev S8x1 : Shape := ⟨2, ![8, 1]⟩
abbrev S8x1x1 : Shape := ⟨3, ![8, 1, 1]⟩
abbrev S8x128x1 : Shape := ⟨3, ![8, 128, 1]⟩

abbrev nBuf : Space → Nat
  | .hbm => 7
  | .vmem => 13
  | .smem => 0
  | _ => 0

abbrev bufTy : (tb : Table) → Fin (tcTables nBuf tb) → BufTy
  | .hbm, ⟨0, _⟩ => ⟨S8192x4096, .f32⟩
  | .hbm, ⟨1, _⟩ => ⟨S8192x32, .f32⟩
  | .hbm, ⟨2, _⟩ => ⟨S4096x4096, .f32⟩
  | .hbm, ⟨3, _⟩ => ⟨S32x32, .f32⟩
  | .hbm, ⟨4, _⟩ => ⟨S4096, .f32⟩
  | .hbm, ⟨5, _⟩ => ⟨S1x4096, .f32⟩
  | .hbm, ⟨6, _⟩ => ⟨S8192x4096, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x32, .f32⟩
  | .local _ .vmem, ⟨5, _⟩ => ⟨S1024x32, .f32⟩
  | .local _ .vmem, ⟨6, _⟩ => ⟨S8x32, .f32⟩
  | .local _ .vmem, ⟨7, _⟩ => ⟨S8x32, .f32⟩
  | .local _ .vmem, ⟨8, _⟩ => ⟨S1x1024, .f32⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 4, 32], ![false, false, false]⟩

def k0_cond2 (i : grid0.Coords) : BitVec 1 :=
  let arg2 : BitVec 32 := BitVec.ofNat 32 (i 2).val
  let c31_i32 : BitVec 32 := 31#32
  let v35 : BitVec 1 := Scalar.cmpi .eq arg2 c31_i32
  let v36 : BitVec 32 := Scalar.extui v35
  let c0_i32_14 : BitVec 32 := 0#32
  let v37 : BitVec 1 := Scalar.cmpi .ne v36 c0_i32_14
  v37

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S8x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  iota_S1x32_d1_w32 : S1x32.Iotas .tc 32 [1]
  natLt_1_32 : 1 < 32
  inb_S1024x32_S1024x32_0_0 : ∀ a, (![0, 0] : Fin 2 → Nat) a + S1024x32.size a ≤ S1024x32.size a
  h_S1024x32 : 0 < S1024x32.numel
  inb_S8x32_S8x32_0_0 : ∀ a, (![0, 0] : Fin 2 → Nat) a + S8x32.size a ≤ S8x32.size a
  h_S8x32 : 0 < S8x32.numel
  broadcasts_S1x32_S1024x32 : S1x32.Broadcasts S1024x32
  reduces_S1024x32_S1024 : S1024x32.Reduces [1] S1024
  shapeCasts_S1024_S1024x1 : S1024.ShapeCasts S1024x1
  broadcasts_S1x32_S8x32 : S1x32.Broadcasts S8x32
  reduces_S8x32_S8 : S8x32.Reduces [1] S8
  shapeCasts_S8_S8x1 : S8.ShapeCasts S8x1
  shapeCasts_S8x1_S8x1x1 : S8x1.ShapeCasts S8x1x1
  broadcasts_S8x1x1_S8x128x1 : S8x1x1.Broadcasts S8x128x1
  shapeCasts_S8x128x1_S1024x1 : S8x128x1.ShapeCasts S1024x1
  inb_S1024x128_S1024x128_0_0 : ∀ a, (![0, 0] : Fin 2 → Nat) a + S1024x128.size a ≤ S1024x128.size a
  h_S1024x128 : 0 < S1024x128.numel
  broadcasts_S1024x1_S1024x128 : S1024x1.Broadcasts S1024x128
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S1024x128_S1024x128_S1024x1024_1_1_0_0_n_n_wf : DotDims.WF S1024x128 S1024x128 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x4096.size a
  hwx0_0 : ∀ i : grid0.Coords, EltTy.bits .f32 = 32 ∨ (Rect.block (s := S8192x4096) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S4096x4096.size a
  hwx0_1 : ∀ i : grid0.Coords, EltTy.bits .f32 = 32 ∨ (Rect.block (s := S4096x4096) S1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x32.size a ≤ S8192x32.size a
  hwx0_2 : ∀ i : grid0.Coords, EltTy.bits .f32 = 32 ∨ (Rect.block (s := S8192x32) S1024x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x32.size a ≤ S32x32.size a
  hwx0_3 : ∀ i : grid0.Coords, EltTy.bits .f32 = 32 ∨ (Rect.block (s := S32x32) S8x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x4096.size a
  hwx0_4 : ∀ i : grid0.Coords, EltTy.bits .f32 = 32 ∨ (Rect.block (s := S1x4096) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S8192x4096.size a
  hwx0_5 : ∀ i : grid0.Coords, EltTy.bits .f32 = 32 ∨ (Rect.block (s := S8192x4096) S1024x1024.size (cc0_transform_5 i) (hinb0_5 i)).WholeWords (EltTy.packing .f32)

variable [Facts₀]

def dot_S1024x128_S1024x128_S1024x1024_1_1_0_0_n_n : DotDims S1024x128 S1024x128 S1024x1024 where
  lhsContracting := [1]
  rhsContracting := [1]
  lhsNonContracting := [0]
  rhsNonContracting := [0]
  lhsBatch := []
  rhsBatch := []
  wf := dot_S1024x128_S1024x128_S1024x1024_1_1_0_0_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1024x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S8x32.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S8192x4096 : Shape := ⟨2, ![8192, 4096]⟩
abbrev S8192x32 : Shape := ⟨2, ![8192, 32]⟩
abbrev S4096x4096 : Shape := ⟨2, ![4096, 4096]⟩
abbrev S32x32 : Shape := ⟨2, ![32, 32]⟩
abbrev S4096 : Shape := ⟨1, ![4096]⟩
abbrev S8192x32x128 : Shape := ⟨3, ![8192, 32, 128]⟩
abbrev S32x128x32 : Shape := ⟨3, ![32, 128, 32]⟩
abbrev S4096x32 : Shape := ⟨2, ![4096, 32]⟩
abbrev S4096x32x128 : Shape := ⟨3, ![4096, 32, 128]⟩
abbrev S1x4096 : Shape := ⟨2, ![1, 4096]⟩

abbrev nBuf : Space → Nat
  | .hbm => 17
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x32, .f32⟩
  | .hbm, ⟨2, _⟩ => ⟨S4096x4096, .f32⟩
  | .hbm, ⟨3, _⟩ => ⟨S32x32, .f32⟩
  | .hbm, ⟨4, _⟩ => ⟨S4096, .f32⟩
  | .hbm, ⟨5, _⟩ => ⟨S8192x32x128, .f32⟩
  | .hbm, ⟨6, _⟩ => ⟨S8192x4096, .f32⟩
  | .hbm, ⟨7, _⟩ => ⟨S32x128x32, .f32⟩
  | .hbm, ⟨8, _⟩ => ⟨S4096x32, .f32⟩
  | .hbm, ⟨9, _⟩ => ⟨S4096x32x128, .f32⟩
  | .hbm, ⟨10, _⟩ => ⟨S4096x4096, .f32⟩
  | .hbm, ⟨11, _⟩ => ⟨S8192x4096, .f32⟩
  | .hbm, ⟨12, _⟩ => ⟨S4096x4096, .f32⟩
  | .hbm, ⟨13, _⟩ => ⟨S8192x4096, .f32⟩
  | .hbm, ⟨14, _⟩ => ⟨S1x4096, .f32⟩
  | .hbm, ⟨15, _⟩ => ⟨S8192x4096, .f32⟩
  | .hbm, ⟨16, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]

class Facts₀ : Prop where
  bcast_S8192x32_S8192x32x128_0_1 : S8192x32.BroadcastsInDim S8192x32x128 (![0, 1] : Fin 2 → Fin S8192x32x128.rank)
  shapeCasts_S8192x32x128_S8192x4096 : S8192x32x128.ShapeCasts S8192x4096
  bcast_S32x32_S32x128x32_0_2 : S32x32.BroadcastsInDim S32x128x32 (![0, 2] : Fin 2 → Fin S32x128x32.rank)
  shapeCasts_S32x128x32_S4096x32 : S32x128x32.ShapeCasts S4096x32
  bcast_S4096x32_S4096x32x128_0_1 : S4096x32.BroadcastsInDim S4096x32x128 (![0, 1] : Fin 2 → Fin S4096x32x128.rank)
  shapeCasts_S4096x32x128_S4096x4096 : S4096x32x128.ShapeCasts S4096x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.Pieces.lean ====
/-
  What one grid point leaves behind, as values.

  The kernel keeps a 1024 × 1024 running sum in a scratch buffer that lives across the 32 steps of the contraction
  axis. At a step it loads the five input tiles and the running sum, and stores the running sum plus this step's
  scaled tile product; at the first step of a run the running sum is first overwritten with zeros, so the value that is
  loaded and added to is the zero tile; at the last step the freshly stored running sum is loaded again, the bias row
  is added along the rows, and the result is stored to the output tile. Each statement below says that the buffer's
  contents after the step are exactly that arithmetic term of the tiles: every load reads a whole buffer, every store
  covers a whole buffer, and a load that follows a store of the same buffer reads what was stored.
-/
import proofs.«124026_j10084583211483_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

/-- The offset of every load and store of the body: the origin. -/
theorem hz : (![0, 0] : Fin 2 → Nat) = fun _ => 0 := funext fun a => by fin_cases a <;> rfl

/-- A middle step of a run: the running sum `acc` becomes `acc` plus this step's scaled tile product. -/
theorem scratch_mid (c : Dev nD) (i : grid0.Coords) (arg3 : Memref sig .tc .vmem S1024x128 .f32) (harg3 : arg3.IsWhole) (arg4 : Memref sig .tc .vmem S1024x128 .f32) (harg4 : arg4.IsWhole) (arg5 : Memref sig .tc .vmem S1024x32 .f32) (harg5 : arg5.IsWhole) (arg6 : Memref sig .tc .vmem S8x32 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (hc0 : ¬cond0_0 i) (hc1 : ¬cond0_1 i)
    (x0 : Vec F S1024x128 .f32) (x1 : Vec F S1024x128 .f32) (x2 : Vec F S1024x32 .f32) (x3 : Vec F S8x32 .f32) (x4 : Vec F S1x1024 .f32) (acc : Vec F S1024x1024 .f32) :
    sout0_B_0 c i arg3 harg3 arg4 harg4 arg5 harg5 arg6 harg6 arg7 harg7 arg8 harg8 arg9 harg9 hc0 hc1 x0 x1 x2 x3 x4 acc = k0_pay3 i x2 x3 x0 x1 acc := by
  unfold sout0_B_0
  rw [View.read_writes_eq_canon _ _ _ (scover0_B_0 c i arg3 harg3 arg4 harg4 arg5 harg5 arg6 harg6 arg7 harg7 arg8 harg8 arg9 harg9 hc0 hc1 x0 x1 x2 x3 x4 acc)]
  unfold kernelRun0_B
  dsimp only
  sl_unfold_words
  rw [View.canon_unit_zero hz]
  simp only [View.readAt_eq_ld, harg3.read_unread, harg4.read_unread, harg5.read_unread, harg6.read_unread,
    harg7.read_unread, harg9.read_unread, View.readCov_unit_zero (S := S1024x1024) _ hz,
    View.ld_unit_zero (S := S1024x128) hz, View.ld_unit_zero (S := S1024x32) hz, View.ld_unit_zero (S := S8x32) hz,
    View.ld_unit_zero (S := S1x1024) hz, View.ld_unit_zero (S := S1024x1024) hz]

/-- The first step of a run: the running sum is reset, so it becomes the zero tile plus this step's scaled tile
    product, whatever it held before. -/
theorem scratch_first (c : Dev nD) (i : grid0.Coords) (arg3 : Memref sig .tc .vmem S1024x128 .f32) (harg3 : arg3.IsWhole) (arg4 : Memref sig .tc .vmem S1024x128 .f32) (harg4 : arg4.IsWhole) (arg5 : Memref sig .tc .vmem S1024x32 .f32) (harg5 : arg5.IsWhole) (arg6 : Memref sig .tc .vmem S8x32 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (hc0 : cond0_0 i) (hc1 : ¬cond0_1 i)
    (x0 : Vec F S1024x128 .f32) (x1 : Vec F S1024x128 .f32) (x2 : Vec F S1024x32 .f32) (x3 : Vec F S8x32 .f32) (x4 : Vec F S1x1024 .f32) :
    sout0_A_0 c i arg3 harg3 arg4 harg4 arg5 harg5 arg6 harg6 arg7 harg7 arg8 harg8 arg9 harg9 hc0 hc1 x0 x1 x2 x3 x4 = k0_pay3 i x2 x3 x0 x1 (k0_pay2 (F := F)) := by
  unfold sout0_A_0
  rw [View.read_writes_eq_canon _ _ _ (scover0_A_0 c i arg3 harg3 arg4 harg4 arg5 harg5 arg6 harg6 arg7 harg7 arg8 harg8 arg9 harg9 hc0 hc1 x0 x1 x2 x3 x4)]
  unfold kernelRun0_A
  dsimp only
  sl_unfold_words
  rw [View.canon_cons_unit_zero (S := S1024x1024) hz]
  simp only [View.readAt_eq_ld, harg3.read_unread, harg4.read_unread, harg5.read_unread, harg6.read_unread,
    harg7.read_unread, harg9.read_unread, View.readCov_unit_zero (S := S1024x1024) _ hz,
    View.ld_unit_zero (S := S1024x128) hz, View.ld_unit_zero (S := S1024x32) hz, View.ld_unit_zero (S := S8x32) hz,
    View.ld_unit_zero (S := S1x1024) hz, View.ld_unit_zero (S := S1024x1024) hz]

/-- The last step of a run updates the running sum like a middle step. -/
theorem scratch_last (c : Dev nD) (i : grid0.Coords) (arg3 : Memref sig .tc .vmem S1024x128 .f32) (harg3 : arg3.IsWhole) (arg4 : Memref sig .tc .vmem S1024x128 .f32) (harg4 : arg4.IsWhole) (arg5 : Memref sig .tc .vmem S1024x32 .f32) (harg5 : arg5.IsWhole) (arg6 : Memref sig .tc .vmem S8x32 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (hc0 : ¬cond0_0 i) (hc1 : cond0_1 i)
    (x0 : Vec F S1024x128 .f32) (x1 : Vec F S1024x128 .f32) (x2 : Vec F S1024x32 .f32) (x3 : Vec F S8x32 .f32) (x4 : Vec F S1x1024 .f32) (acc : Vec F S1024x1024 .f32) :
    sout0_C_0 c i arg3 harg3 arg4 harg4 arg5 harg5 arg6 harg6 arg7 harg7 arg8 harg8 arg9 harg9 hc0 hc1 x0 x1 x2 x3 x4 acc = k0_pay3 i x2 x3 x0 x1 acc := by
  unfold sout0_C_0
  rw [View.read_writes_eq_canon _ _ _ (scover0_C_0 c i arg3 harg3 arg4 harg4 arg5 harg5 arg6 harg6 arg7 harg7 arg8 harg8 arg9 harg9 hc0 hc1 x0 x1 x2 x3 x4 acc)]
  unfold kernelRun0_C
  dsimp only
  sl_unfold_words
  rw [View.canon_unit_zero hz]
  simp only [View.readAt_eq_ld, harg3.read_unread, harg4.read_unread, harg5.read_unread, harg6.read_unread,
    harg7.read_unread, harg9.read_unread, View.readCov_unit_zero (S := S1024x1024) _ hz,
    View.ld_unit_zero (S := S1024x128) hz, View.ld_unit_zero (S := S1024x32) hz, View.ld_unit_zero (S := S8x32) hz,
    View.ld_unit_zero (S := S1x1024) hz, View.ld_unit_zero (S := S1024x1024) hz]

/-- The last step of a run also writes the output tile: the updated running sum plus the bias row. -/
theorem out_last (c : Dev nD) (i : grid0.Coords) (arg3 : Memref sig .tc .vmem S1024x128 .f32) (harg3 : arg3.IsWhole) (arg4 : Memref sig .tc .vmem S1024x128 .f32) (harg4 : arg4.IsWhole) (arg5 : Memref sig .tc .vmem S1024x32 .f32) (harg5 : arg5.IsWhole) (arg6 : Memref sig .tc .vmem S8x32 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (hc0 : ¬cond0_0 i) (hc1 : cond0_1 i)
    (x0 : Vec F S1024x128 .f32) (x1 : Vec F S1024x128 .f32) (x2 : Vec F S1024x32 .f32) (x3 : Vec F S8x32 .f32) (x4 : Vec F S1x1024 .f32) (acc : Vec F S1024x1024 .f32) :
    out0_C_5 c i arg3 harg3 arg4 harg4 arg5 harg5 arg6 harg6 arg7 harg7 arg8 harg8 arg9 harg9 hc0 hc1 x0 x1 x2 x3 x4 acc = k0_pay1 (k0_pay3 i x2 x3 x0 x1 acc) x4 := by
  unfold out0_C_5
  rw [View.read_writes_eq_canon _ _ _ (cover0_C_5 c i arg3 harg3 arg4 harg4 arg5 harg5 arg6 harg6 arg7 harg7 arg8 harg8 arg9 harg9 hc0 hc1 x0 x1 x2 x3 x4 acc)]
  unfold kernelRun0_C
  dsimp only
  sl_unfold_words
  rw [View.canon_unit_zero hz]
  simp only [View.readAt_eq_ld, harg3.read_unread, harg4.read_unread, harg5.read_unread, harg6.read_unread,
    harg7.read_unread, harg9.read_unread, View.readCov_unit_zero (S := S1024x1024) _ hz,
    View.ld_unit_zero (S := S1024x128) hz, View.ld_unit_zero (S := S1024x32) hz, View.ld_unit_zero (S := S8x32) hz,
    View.ld_unit_zero (S := S1x1024) hz, View.ld_unit_zero (S := S1024x1024) hz]

end Cert.KernelIdeal.Pieces

end
-- ==== Proof.Spec.lean ====
/-
  The block-scaled matrix product with bias, as one function of the five arrays, and the two ways of adding it up.

  For a row m < 8192 and a column n < 4096 the result is

      ( ∑ k < 4096,  (X[m,k] · XS[m, k/128]) · (W[n,k] · WS[n/128, k/128]) )  +  B[n] :

  each entry of X is scaled by the scale of its row and of the 128-wide block of columns it lies in, each entry of W by
  the scale of the 128 × 128 block it lies in, and the scaled rows are multiplied (W is used transposed). One program
  adds the 4096 terms in one sum; the other walks the 32 blocks of 128 columns, adding each block's 128 terms to a
  running sum that starts at zero. Over the extended reals addition is commutative and associative, so the two are
  the same number; nothing else is used: no distributivity, no finiteness.

  The terms are indexed by a natural number `k` (zero from 4096 on), so that "the first 128·b terms" is a sum over
  an initial segment and a block of 128 terms is the next stretch of it.

  The column of a scale table that belongs to block `b` is picked by multiplying the row of the table by the
  indicator of `b` and adding up: every product but one is a multiple of zero, which is zero for every extended
  real, and the remaining one is a multiple of one.
-/
import Idealize.ShloMosaic.PureOps.Ideal.Laws
import Idealize.ShloMosaic.Lib.ValueIdx

noncomputable section

open scoped BigOperators

namespace Cert.BlockScaled

open Idealize.ShloMosaic Idealize.ShloMosaic.ValueIdx

/-- A matrix of extended reals with `a` rows and `b` columns, indexed as the programs index their arrays. -/
abbrev Mat (a b : Nat) : Type := (⟨2, ![a, b]⟩ : Shape).Idx → EReal

variable (X : Mat 8192 4096) (XS : Mat 8192 32) (W : Mat 4096 4096) (WS : Mat 32 32)

/-- The `k`-th term of entry (m, n): the scaled entry of X times the scaled entry of W; zero from 4096 on. -/
def term (m : Fin 8192) (n : Fin 4096) (k : ℕ) : EReal :=
  if h : k < 4096 then
    (X (ix2 m ⟨k, h⟩) * XS (ix2 m ⟨k / 128, by omega⟩))
      * (W (ix2 n ⟨k, h⟩) * WS (ix2 ⟨n.val / 128, by have := n.isLt; omega⟩ ⟨k / 128, by omega⟩))
  else 0

/-- The sum of the first `K` terms of entry (m, n). -/
def firstTerms (m : Fin 8192) (n : Fin 4096) (K : ℕ) : EReal := ∑ k ∈ Finset.range K, term X XS W WS m n k

/-- The result: all 4096 terms, plus the bias of the column. -/
def gemmBias (B : (⟨1, ![4096]⟩ : Shape).Idx → EReal) : Mat 8192 4096 :=
  fun i => firstTerms X XS W WS (i 0) (i 1) 4096 + B (ix1 (i 1))

/-- No terms add up to zero. -/
theorem firstTerms_zero (m : Fin 8192) (n : Fin 4096) : firstTerms X XS W WS m n 0 = 0 := Finset.sum_range_zero _

/-- One more block: the first 128·(b+1) terms are the first 128·b terms plus the 128 terms of block `b`. -/
theorem firstTerms_block (m : Fin 8192) (n : Fin 4096) (b : ℕ) :
    firstTerms X XS W WS m n (128 * (b + 1))
      = firstTerms X XS W WS m n (128 * b) + ∑ q : Fin 128, term X XS W WS m n (128 * b + q.val) := by
  unfold firstTerms
  rw [show 128 * (b + 1) = 128 * b + 128 by ring, Finset.sum_range_add,
    Fin.sum_univ_eq_sum_range (fun q => term X XS W WS m n (128 * b + q)) 128]

/-- A sum over the 4096 columns whose summands are the terms is the sum of the first 4096 terms. -/
theorem sum_columns (m : Fin 8192) (n : Fin 4096) (f : Fin 4096 → EReal)
    (hf : ∀ k : Fin 4096, f k = term X XS W WS m n k.val) : ∑ k, f k = firstTerms X XS W WS m n 4096 := by
  unfold firstTerms
  rw [← Fin.sum_univ_eq_sum_range]
  exact Finset.sum_congr rfl fun k _ => hf k

/-- A term below 4096, written out. -/
theorem term_of_lt (m : Fin 8192) (n : Fin 4096) (k : ℕ) (h : k < 4096) :
    term X XS W WS m n k = (X (ix2 m ⟨k, h⟩) * XS (ix2 m ⟨k / 128, by omega⟩))
      * (W (ix2 n ⟨k, h⟩) * WS (ix2 ⟨n.val / 128, by have := n.isLt; omega⟩ ⟨k / 128, by omega⟩)) := by
  unfold term
  rw [dif_pos h]

/-- Picking one column of a row of 32 numbers: the sum of the row against the indicator of position `b` is the
    entry at `b`. A multiple of zero is zero and a multiple of one is itself, for every extended real. -/
theorem pick (S : Fin 32 → EReal) (ind : Fin 32 → EReal) (b : Fin 32)
    (hind : ∀ c : Fin 32, ind c = if c = b then 1 else 0) : ∑ c : Fin 32, S c * ind c = S b := by
  rw [Finset.sum_eq_single b]
  · rw [hind b, if_pos rfl, mul_one]
  · intro c _ hc
    rw [hind c, if_neg hc, mul_zero]
  · intro hb
    exact absurd (Finset.mem_univ b) hb

/-- The indicator the kernel builds: position `c` compared with `b` as 32-bit words, the one-bit answer widened to a
    word and read as a signed integer, is one where the positions agree and zero elsewhere. -/
theorem indicator_word : ∀ c b : Fin 32,
    ((IntOp.cmpi .eq (BitVec.ofNat 32 c.val) (BitVec.ofNat 32 b.val)).setWidth 32).toInt = if c = b then 1 else 0 := by
  decide +kernel

end Cert.BlockScaled

end
-- ==== Proof.Payload.lean ====
/-
  The body's arithmetic read at one entry, over the extended reals.

  One step of the kernel, at contraction block `b` (the grid's third coordinate), turns the running sum `acc` into

      acc[r, n] + ∑ q < 128, (x[r, q] · xs[r, b]) · (w[n, q] · ws[n / 128, b])

  for a 1024 × 128 tile `x` of X, a 1024 × 128 tile `w` of W, the 1024 × 32 rows `xs` of X's scale table and the
  8 × 32 rows `ws` of W's. The kernel finds column `b` of either scale table by multiplying each row with the
  indicator of `b` and summing along the row; it repeats each of the 8 picked numbers of `ws` 128 times down a
  column of length 1024 (entry n holds number n / 128); it multiplies the tiles by these columns, rounds to a
  shorter float format, which over the extended reals changes nothing, and multiplies the first tile by the transpose
  of the second into an all-zero accumulator, which is the plain sum of products. The last step also adds the bias
  row to every row of the finished sum.
-/
import proofs.«124026_j10084583211483_1_alg».proof.Proof.Gen.KernelIdeal.Skeleton
import proofs.«124026_j10084583211483_1_alg».proof.Proof.Spec
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem
open Idealize.ShloMosaic.Pipeline (Dat)

open scoped BigOperators

namespace Cert.KernelIdeal.Payload

open Cert.KernelIdeal Cert.KernelIdeal.Gen Idealize.ShloMosaic.ValueIdx

/-! ## The tile product: first tile times the transpose of the second -/

theorem lhs_row (j : S1024x1024.Idx) (q : dot_S1024x128_S1024x128_S1024x1024_1_1_0_0_n_n.contr.Idx) :
    (dot_S1024x128_S1024x128_S1024x1024_1_1_0_0_n_n.lhsIdx j q 0).val = (j 0).val := by
  unfold DotDims.lhsIdx
  rw [dif_neg (show ¬(0 : Fin S1024x128.rank) ∈ dot_S1024x128_S1024x128_S1024x1024_1_1_0_0_n_n.lhsBatch by decide), dif_pos (show (0 : Fin S1024x128.rank) ∈ dot_S1024x128_S1024x128_S1024x1024_1_1_0_0_n_n.lhsNonContracting by decide)]
  rfl
theorem lhs_col (j : S1024x1024.Idx) (q : dot_S1024x128_S1024x128_S1024x1024_1_1_0_0_n_n.contr.Idx) :
    (dot_S1024x128_S1024x128_S1024x1024_1_1_0_0_n_n.lhsIdx j q 1).val = (q ⟨0, by decide⟩).val :=
  dot_S1024x128_S1024x128_S1024x1024_1_1_0_0_n_n.lhsIdx_val_of_single rfl j q
theorem rhs_row (j : S1024x1024.Idx) (q : dot_S1024x128_S1024x128_S1024x1024_1_1_0_0_n_n.contr.Idx) :
    (dot_S1024x128_S1024x128_S1024x1024_1_1_0_0_n_n.rhsIdx j q 0).val = (j 1).val := by
  unfold DotDims.rhsIdx
  rw [dif_neg (show ¬(0 : Fin S1024x128.rank) ∈ dot_S1024x128_S1024x128_S1024x1024_1_1_0_0_n_n.rhsBatch by decide), dif_pos (show (0 : Fin S1024x128.rank) ∈ dot_S1024x128_S1024x128_S1024x1024_1_1_0_0_n_n.rhsNonContracting by decide)]
  rfl
theorem rhs_col (j : S1024x1024.Idx) (q : dot_S1024x128_S1024x128_S1024x1024_1_1_0_0_n_n.contr.Idx) :
    (dot_S1024x128_S1024x128_S1024x1024_1_1_0_0_n_n.rhsIdx j q 1).val = (q ⟨0, by decide⟩).val :=
  dot_S1024x128_S1024x128_S1024x1024_1_1_0_0_n_n.rhsIdx_val_of_single rfl j q

/-- Entry (r, n) of the product into the zero accumulator: row r of the first tile against row n of the second. -/
theorem tile_product {φ₁ φ₂ : FTy} (A : FVec Ideal S1024x128 φ₁) (B : FVec Ideal S1024x128 φ₂) (r n : Fin 1024) :
    matmul dot_S1024x128_S1024x128_S1024x1024_1_1_0_0_n_n none A B (constant S1024x1024 .f32 0x00000000#32) (ix2 r n)
      = ∑ q : Fin 128, A (ix2 r q) * B (ix2 n q) := by
  simp only [matmul]
  rw [Ideal.matmul_constant_zero_apply, ← Equiv.sum_comp (contrEquiv1 dot_S1024x128_S1024x128_S1024x1024_1_1_0_0_n_n 128 rfl rfl).symm]
  refine Finset.sum_congr rfl fun k _ => ?_
  have hk := contrEquiv1_symm_val dot_S1024x128_S1024x128_S1024x1024_1_1_0_0_n_n 128 rfl rfl k
  have el : dot_S1024x128_S1024x128_S1024x1024_1_1_0_0_n_n.lhsIdx (ix2 r n) ((contrEquiv1 dot_S1024x128_S1024x128_S1024x1024_1_1_0_0_n_n 128 rfl rfl).symm k) = ix2 r k := funext fun a => Fin.ext (by
    match a with
    | ⟨0, _⟩ => exact lhs_row _ _
    | ⟨1, _⟩ => exact (lhs_col _ _).trans hk)
  have er : dot_S1024x128_S1024x128_S1024x1024_1_1_0_0_n_n.rhsIdx (ix2 r n) ((contrEquiv1 dot_S1024x128_S1024x128_S1024x1024_1_1_0_0_n_n 128 rfl rfl).symm k) = ix2 n k := funext fun a => Fin.ext (by
    match a with
    | ⟨0, _⟩ => exact rhs_row _ _
    | ⟨1, _⟩ => exact (rhs_col _ _).trans hk)
  rw [el, er]

/-! ## The indicator row and the picked columns -/

/-- The kernel's indicator row at position `c`: position `c` compared with the word `a`, widened, read as a number. -/
theorem indicator_apply (a : BitVec 32) (hi : S1x32.Iotas .tc 32 [1]) (hw : 1 < 32) (j : S1x32.Idx) :
    (sitofp .f32 (extui 32 (cmpi .eq (iota .tc S1x32 32 [1] hi) (broadcast S1x32 a)) hw) : FVec Ideal S1x32 .f32) j
      = (((((IntOp.cmpi .eq (BitVec.ofNat 32 (j 1).val) a).setWidth 32).toInt : ℤ) : ℝ) : EReal) := by
  show FloatOps.sitofp (F := Ideal) .f32 ((IntOp.cmpi .eq (iota .tc S1x32 32 [1] hi j) a).setWidth 32) = _
  rw [iota_single_apply]
  rfl

/-- At the contraction block `b` it is one at position `b` and zero elsewhere. -/
theorem indicator_at (b : Fin 32) (hi : S1x32.Iotas .tc 32 [1]) (hw : 1 < 32) (z : Fin 1) (c : Fin 32) :
    (sitofp .f32 (extui 32 (cmpi .eq (iota .tc S1x32 32 [1] hi) (broadcast S1x32 (BitVec.ofNat 32 b.val))) hw) : FVec Ideal S1x32 .f32) (ix2 z c)
      = if c = b then 1 else 0 := by
  rw [indicator_apply]
  show (((((IntOp.cmpi .eq (BitVec.ofNat 32 c.val) (BitVec.ofNat 32 b.val)).setWidth 32).toInt : ℤ) : ℝ) : EReal) = _
  rw [Cert.BlockScaled.indicator_word c b]
  by_cases h : c = b
  · rw [if_pos h, if_pos h]; simp
  · rw [if_neg h, if_neg h]; simp

/-- Row r of a 1024 × 32 table, multiplied by the indicator row of `b` and summed along the row, then written as a
    column: entry (r, b) of the table. -/
theorem picked_column (ind : FVec Ideal S1x32 .f32) (b : Fin 32)
    (hind : ∀ (z : Fin 1) (c : Fin 32), ind (ix2 z c) = if c = b then 1 else 0)
    (xs : Vec Ideal S1024x32 .f32) (hb : S1x32.Broadcasts S1024x32) (hr : S1024x32.Reduces [1] S1024)
    (hf : FKind.Formats .f32) (ha : (0x00000000#32 : BitVec 32) = FKind.add.neutral .f32 hf)
    (hs : S1024.ShapeCasts S1024x1) (r : Fin 1024) (z : Fin 1) :
    shapeCast S1024x1 (multiReduction .add [1] S1024 (mulf xs (broadcastTo S1024x32 ind hb)) 0x00000000#32 hr hf ha) hs (ix2 r z)
      = xs (ix2 r b) := by
  refine (shapeCast_apply _ hs (ix2 r z) (ix1 r) (by
    rw [Shape.rowMajor_val_one, Shape.rowMajor_val_two]
    show r.val = r.val * 1 + z.val
    have := z.isLt; omega)).trans ?_
  rw [Ideal.multiReduction_add_single]
  refine (Finset.sum_congr rfl fun c _ => ?_).trans
    (Cert.BlockScaled.pick (fun c => xs (ix2 r c)) (fun c => ind (ix2 0 c)) b (hind 0))
  have e : hr.lift (ix1 r) c = ix2 r c := funext fun a => Fin.ext (by
    match a with
    | ⟨0, _⟩ => rfl
    | ⟨1, _⟩ => rfl)
  rw [e]
  show xs (ix2 r c) * broadcastTo S1024x32 ind hb (ix2 r c) = xs (ix2 r c) * ind (ix2 0 c)
  rw [broadcastTo_apply ind hb (ix2 r c) (ix2 0 c) (fun a => by
    match a with
    | ⟨0, _⟩ => show (0 : ℕ) = if (1 : ℕ) = 1 then 0 else _; rw [if_pos rfl]
    | ⟨1, _⟩ => show c.val = if (32 : ℕ) = 1 then 0 else c.val; rw [if_neg (by decide)])]

/-- Row a of an 8 × 32 table treated the same way, the 8 picked numbers then each repeated 128 times down a column
    of length 1024: entry n of the column is entry (n / 128, b) of the table. -/
theorem picked_repeated (ind : FVec Ideal S1x32 .f32) (b : Fin 32)
    (hind : ∀ (z : Fin 1) (c : Fin 32), ind (ix2 z c) = if c = b then 1 else 0)
    (ws : Vec Ideal S8x32 .f32) (hb : S1x32.Broadcasts S8x32) (hr : S8x32.Reduces [1] S8)
    (hf : FKind.Formats .f32) (ha : (0x00000000#32 : BitVec 32) = FKind.add.neutral .f32 hf)
    (hs1 : S8.ShapeCasts S8x1) (hs2 : S8x1.ShapeCasts S8x1x1) (hb2 : S8x1x1.Broadcasts S8x128x1)
    (hs3 : S8x128x1.ShapeCasts S1024x1) (n : Fin 1024) (z : Fin 1) :
    shapeCast S1024x1 (broadcastTo S8x128x1 (shapeCast S8x1x1 (shapeCast S8x1
        (multiReduction .add [1] S8 (mulf ws (broadcastTo S8x32 ind hb)) 0x00000000#32 hr hf ha) hs1) hs2) hb2) hs3 (ix2 n z)
      = ws (ix2 ⟨n.val / 128, by have := n.isLt; omega⟩ b) := by
  have hn := n.isLt
  have hz := z.isLt
  refine (shapeCast_apply _ hs3 (ix2 n z)
    (ix3 (⟨n.val / 128, by omega⟩ : Fin 8) (⟨n.val % 128, by omega⟩ : Fin 128) (0 : Fin 1)) (by
      rw [Shape.rowMajor_val_three, Shape.rowMajor_val_two]
      show (n.val / 128 * 128 + n.val % 128) * 1 + 0 = n.val * 1 + z.val
      omega)).trans ?_
  refine (broadcastTo_apply _ hb2 _ (ix3 (⟨n.val / 128, by omega⟩ : Fin 8) (0 : Fin 1) (0 : Fin 1)) (fun a => by
    match a with
    | ⟨0, _⟩ => show n.val / 128 = if (8 : ℕ) = 1 then 0 else n.val / 128; rw [if_neg (by decide)]
    | ⟨1, _⟩ => show (0 : ℕ) = if (1 : ℕ) = 1 then 0 else _; rw [if_pos rfl]
    | ⟨2, _⟩ => show (0 : ℕ) = if (1 : ℕ) = 1 then 0 else _; rw [if_pos rfl])).trans ?_
  refine (shapeCast_apply _ hs2 _ (ix2 (⟨n.val / 128, by omega⟩ : Fin 8) (0 : Fin 1)) (by
      rw [Shape.rowMajor_val_two, Shape.rowMajor_val_three]
      show n.val / 128 * 1 + 0 = (n.val / 128 * 1 + 0) * 1 + 0
      omega)).trans ?_
  refine (shapeCast_apply _ hs1 _ (ix1 (⟨n.val / 128, by omega⟩ : Fin 8)) (by
      rw [Shape.rowMajor_val_one, Shape.rowMajor_val_two]
      show n.val / 128 = n.val / 128 * 1 + 0
      omega)).trans ?_
  rw [Ideal.multiReduction_add_single]
  refine (Finset.sum_congr rfl fun c _ => ?_).trans
    (Cert.BlockScaled.pick (fun c => ws (ix2 ⟨n.val / 128, by omega⟩ c)) (fun c => ind (ix2 0 c)) b (hind 0))
  have e : hr.lift (ix1 (⟨n.val / 128, by omega⟩ : Fin 8)) c = ix2 ⟨n.val / 128, by omega⟩ c := funext fun a => Fin.ext (by
    match a with
    | ⟨0, _⟩ => rfl
    | ⟨1, _⟩ => rfl)
  rw [e]
  show ws (ix2 ⟨n.val / 128, _⟩ c) * broadcastTo S8x32 ind hb (ix2 ⟨n.val / 128, _⟩ c) = ws (ix2 ⟨n.val / 128, _⟩ c) * ind (ix2 0 c)
  rw [broadcastTo_apply ind hb (ix2 (⟨n.val / 128, by omega⟩ : Fin 8) c) (ix2 0 c) (fun a => by
    match a with
    | ⟨0, _⟩ => show (0 : ℕ) = if (1 : ℕ) = 1 then 0 else _; rw [if_pos rfl]
    | ⟨1, _⟩ => show c.val = if (32 : ℕ) = 1 then 0 else c.val; rw [if_neg (by decide)])]

/-! ## The three stored values at an entry -/

/-- The grid's third coordinate, as a position in a scale table's row. -/
abbrev blockOf (i : grid0.Coords) : Fin 32 := ⟨(i 2).val, (i 2).isLt⟩

/-- One step: the running sum plus the 128 scaled products of this block. -/
theorem step_apply (i : grid0.Coords) (xs : Vec Ideal S1024x32 .f32) (ws : Vec Ideal S8x32 .f32)
    (x w : Vec Ideal S1024x128 .f32) (acc : Vec Ideal S1024x1024 .f32) (r n : Fin 1024) :
    k0_pay3 (F := Ideal) i xs ws x w acc (ix2 r n)
      = acc (ix2 r n) + ∑ q : Fin 128, (x (ix2 r q) * xs (ix2 r (blockOf i)))
          * (w (ix2 n q) * ws (ix2 ⟨n.val / 128, by have := n.isLt; omega⟩ (blockOf i))) := by
  unfold k0_pay3
  dsimp only
  rw [shapeCast_self]
  show acc (ix2 r n) + matmul (F := Ideal) _ none _ _ _ (ix2 r n) = _
  rw [tile_product]
  refine congrArg (acc (ix2 r n) + ·) (Finset.sum_congr rfl fun q _ => ?_)
  show (x (ix2 r q) * broadcastTo S1024x128 _ broadcasts_S1024x1_S1024x128 (ix2 r q))
      * (w (ix2 n q) * broadcastTo S1024x128 _ broadcasts_S1024x1_S1024x128 (ix2 n q)) = _
  rw [broadcastTo_apply _ broadcasts_S1024x1_S1024x128 (ix2 r q) (ix2 r (0 : Fin 1)) (fun a => by
      match a with
      | ⟨0, _⟩ => show r.val = if (1024 : ℕ) = 1 then 0 else r.val; rw [if_neg (by decide)]
      | ⟨1, _⟩ => show (0 : ℕ) = if (1 : ℕ) = 1 then 0 else _; rw [if_pos rfl]),
    broadcastTo_apply _ broadcasts_S1024x1_S1024x128 (ix2 n q) (ix2 n (0 : Fin 1)) (fun a => by
      match a with
      | ⟨0, _⟩ => show n.val = if (1024 : ℕ) = 1 then 0 else n.val; rw [if_neg (by decide)]
      | ⟨1, _⟩ => show (0 : ℕ) = if (1 : ℕ) = 1 then 0 else _; rw [if_pos rfl])]
  have hind : ∀ (z : Fin 1) (c : Fin 32),
      (sitofp .f32 (extui 32 (cmpi .eq (iota .tc S1x32 32 [1] iota_S1x32_d1_w32)
        (broadcast S1x32 (BitVec.ofNat 32 (i 2).val))) natLt_1_32) : FVec Ideal S1x32 .f32) (ix2 z c)
        = if c = blockOf i then 1 else 0 := indicator_at (blockOf i) iota_S1x32_d1_w32 natLt_1_32
  congr 1
  · congr 1
    exact picked_column _ (blockOf i) hind xs _ _ _ _ _ r 0
  · congr 1
    exact picked_repeated _ (blockOf i) hind ws _ _ _ _ _ _ _ _ n 0

/-- The reset value: zero everywhere. -/
theorem reset_apply (j : S1024x1024.Idx) : k0_pay2 (F := Ideal) j = 0 := by
  unfold k0_pay2
  rw [shapeCast_self]
  show Ideal.ofBits .f32 0x00000000#32 = 0
  exact Ideal.ofBits_zero_f32

/-- The output tile: the finished sum plus the bias of the column. -/
theorem biased_apply (s : Vec Ideal S1024x1024 .f32) (bias : Vec Ideal S1x1024 .f32) (r n : Fin 1024) :
    k0_pay1 (F := Ideal) s bias (ix2 r n) = s (ix2 r n) + bias (ix2 (0 : Fin 1) n) := by
  unfold k0_pay1
  show s (ix2 r n) + broadcastTo S1024x1024 (shapeCast S1x1024 bias shapeCasts_S1x1024_S1x1024) broadcasts_S1x1024_S1024x1024 (ix2 r n) = _
  rw [shapeCast_self, broadcastTo_apply bias broadcasts_S1x1024_S1024x1024 (ix2 r n) (ix2 (0 : Fin 1) n) (fun a => by
      match a with
      | ⟨0, _⟩ => show (0 : ℕ) = if (1 : ℕ) = 1 then 0 else _; rw [if_pos rfl]
      | ⟨1, _⟩ => show n.val = if (1024 : ℕ) = 1 then 0 else n.val; rw [if_neg (by decide)])]

end Cert.KernelIdeal.Payload

end
-- ==== Proof.Blocks.lean ====
/-
  What the kernel's result array holds after the run.

  The grid has 8 × 4 × 32 points; point t works on the 1024 × 1024 output tile in row block t / 128 and column block
  (t / 32) mod 4, at contraction block t mod 32. Its input tiles are rows 1024·(t/128) + r of X (columns
  128·(t mod 32) + q) and of X's scale table, rows 1024·((t/32) mod 4) + n of W (same columns), rows
  8·((t/32) mod 4) + a of W's scale table, and the matching 1024 entries of the bias.

  After point t the running sum holds, at (r, n), the first 128·(t mod 32 + 1) terms of the result's entry
  (1024·(t/128) + r, 1024·((t/32) mod 4) + n): at the first point of a run of 32 the sum restarts from zero, and each
  point adds its block of 128 terms (induction on the point). At the last point of a run, all 4096 terms are there and
  the tile written back is the sum plus the bias: exactly the tile of the result. Every entry of the array lies in the
  tile of one such point, so the array is the result.
-/
import proofs.«124026_j10084583211483_1_alg».proof.Proof.Gen.KernelIdeal.Value
import proofs.«124026_j10084583211483_1_alg».proof.Proof.Pieces
import proofs.«124026_j10084583211483_1_alg».proof.Proof.Payload
import proofs.«124026_j10084583211483_1_alg».proof.Proof.Spec
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

open scoped BigOperators

namespace Cert.KernelIdeal.Blocks

open Cert.KernelIdeal Cert.KernelIdeal.Gen Idealize.ShloMosaic.ValueIdx Cert.BlockScaled

variable (m : (ℓ : Loc nD τ sig) → Buf (Elt Ideal) ℓ) (ρ : Dev nD → PrngReg)

/-! ## The five arrays and the tiles of a point -/

abbrev X (c : Dev nD) : Vec Ideal S8192x4096 .f32 := m ((c : Thread nD τ).loc main_arg0)
abbrev XS (c : Dev nD) : Vec Ideal S8192x32 .f32 := m ((c : Thread nD τ).loc main_arg1)
abbrev Wm (c : Dev nD) : Vec Ideal S4096x4096 .f32 := m ((c : Thread nD τ).loc main_arg2)
abbrev WS (c : Dev nD) : Vec Ideal S32x32 .f32 := m ((c : Thread nD τ).loc main_arg3)
abbrev Bv (c : Dev nD) : Vec Ideal S4096 .f32 := m ((c : Thread nD τ).loc main_arg4)

abbrev xt (c : Dev nD) (t : Fin cfg0.N) : Vec Ideal S1024x128 .f32 := iblk m c 0 t
abbrev wt (c : Dev nD) (t : Fin cfg0.N) : Vec Ideal S1024x128 .f32 := iblk m c 1 t
abbrev xst (c : Dev nD) (t : Fin cfg0.N) : Vec Ideal S1024x32 .f32 := iblk m c 2 t
abbrev wst (c : Dev nD) (t : Fin cfg0.N) : Vec Ideal S8x32 .f32 := iblk m c 3 t
abbrev bt (c : Dev nD) (t : Fin cfg0.N) : Vec Ideal S1x1024 .f32 := iblk m c 4 t

/-- The result array: the block-scaled product with bias of the five arrays. -/
abbrev result (c : Dev nD) : Buf (Elt Ideal) ((c : Thread nD τ).loc main_v1) :=
  gemmBias (X m c) (XS m c) (Wm m c) (WS m c) (Bv m c)

theorem hN : cfg0.N = 1024 := N_0

/-- The row of the result that row r of point t's tile is. -/
def rowOf (t : Fin cfg0.N) (r : Fin 1024) : Fin 8192 :=
  ⟨1024 * (t.val / 128) + r.val, by have := t.isLt; have := hN; omega⟩
/-- The column of the result that column n of point t's tile is. -/
def colOf (t : Fin cfg0.N) (n : Fin 1024) : Fin 4096 :=
  ⟨1024 * (t.val / 32 % 4) + n.val, by omega⟩

/-- Where each window's block lies at point t, and the point's contraction block: decided over the 1024 points. -/
theorem where_blocks : ∀ t : Fin cfg0.N,
    win0_0.index t (0 : Fin 2) = t.val / 128 ∧ win0_0.index t (1 : Fin 2) = t.val % 32
    ∧ win0_1.index t (0 : Fin 2) = t.val / 32 % 4 ∧ win0_1.index t (1 : Fin 2) = t.val % 32
    ∧ win0_2.index t (0 : Fin 2) = t.val / 128 ∧ win0_2.index t (1 : Fin 2) = 0
    ∧ win0_3.index t (0 : Fin 2) = t.val / 32 % 4 ∧ win0_3.index t (1 : Fin 2) = 0
    ∧ win0_4.index t (0 : Fin 2) = 0 ∧ win0_4.index t (1 : Fin 2) = t.val / 32 % 4
    ∧ win0_5.index t (0 : Fin 2) = t.val / 128 ∧ win0_5.index t (1 : Fin 2) = t.val / 32 % 4
    ∧ (grid0.coords t 2).val = t.val % 32 :=
  (by decide +kernel : ∀ t : Fin grid0.N, _)

/-- The X tile. -/
theorem xt_apply (c : Dev nD) (t : Fin cfg0.N) (r : Fin 1024) (q : Fin 128) :
    xt m c t (ix2 r q) = X m c (ix2 (rowOf t r) ⟨128 * (t.val % 32) + q.val, by omega⟩) := by
  obtain ⟨e0, e1, -⟩ := where_blocks t
  unfold xt iblk
  rw [View.read_apply]
  show V m c main_arg0 _ = m ((c : Thread nD τ).loc main_arg0) _
  rw [V_main_arg0]
  congr 1
  funext a
  apply Fin.ext
  match a with
  | ⟨0, _⟩ => show win0_0.index t (0 : Fin 2) * 1024 + 1 * r.val = 1024 * (t.val / 128) + r.val; rw [e0]; omega
  | ⟨1, _⟩ => show win0_0.index t (1 : Fin 2) * 128 + 1 * q.val = 128 * (t.val % 32) + q.val; rw [e1]; omega

/-- The W tile. -/
theorem wt_apply (c : Dev nD) (t : Fin cfg0.N) (n : Fin 1024) (q : Fin 128) :
    wt m c t (ix2 n q) = Wm m c (ix2 (colOf t n) ⟨128 * (t.val % 32) + q.val, by omega⟩) := by
  obtain ⟨-, -, e0, e1, -⟩ := where_blocks t
  unfold wt iblk
  rw [View.read_apply]
  show V m c main_arg2 _ = m ((c : Thread nD τ).loc main_arg2) _
  rw [V_main_arg2]
  congr 1
  funext a
  apply Fin.ext
  match a with
  | ⟨0, _⟩ => show win0_1.index t (0 : Fin 2) * 1024 + 1 * n.val = 1024 * (t.val / 32 % 4) + n.val; rw [e0]; omega
  | ⟨1, _⟩ => show win0_1.index t (1 : Fin 2) * 128 + 1 * q.val = 128 * (t.val % 32) + q.val; rw [e1]; omega

/-- The rows of X's scale table. -/
theorem xst_apply (c : Dev nD) (t : Fin cfg0.N) (r : Fin 1024) (b : Fin 32) :
    xst m c t (ix2 r b) = XS m c (ix2 (rowOf t r) b) := by
  obtain ⟨-, -, -, -, e0, e1, -⟩ := where_blocks t
  unfold xst iblk
  rw [View.read_apply]
  show V m c main_arg1 _ = m ((c : Thread nD τ).loc main_arg1) _
  rw [V_main_arg1]
  congr 1
  funext a
  apply Fin.ext
  match a with
  | ⟨0, _⟩ => show win0_2.index t (0 : Fin 2) * 1024 + 1 * r.val = 1024 * (t.val / 128) + r.val; rw [e0]; omega
  | ⟨1, _⟩ => show win0_2.index t (1 : Fin 2) * 32 + 1 * b.val = b.val; rw [e1]; omega

/-- The rows of W's scale table. -/
theorem wst_apply (c : Dev nD) (t : Fin cfg0.N) (a : Fin 8) (b : Fin 32) :
    wst m c t (ix2 a b) = WS m c (ix2 ⟨8 * (t.val / 32 % 4) + a.val, by omega⟩ b) := by
  obtain ⟨-, -, -, -, -, -, e0, e1, -⟩ := where_blocks t
  unfold wst iblk
  rw [View.read_apply]
  show V m c main_arg3 _ = m ((c : Thread nD τ).loc main_arg3) _
  rw [V_main_arg3]
  congr 1
  funext d
  apply Fin.ext
  match d with
  | ⟨0, _⟩ => show win0_3.index t (0 : Fin 2) * 8 + 1 * a.val = 8 * (t.val / 32 % 4) + a.val; rw [e0]; omega
  | ⟨1, _⟩ => show win0_3.index t (1 : Fin 2) * 32 + 1 * b.val = b.val; rw [e1]; omega

/-- The bias, which the program first writes as one row of 4096, as the region finds it. -/
theorem bias_row (c : Dev nD) :
    (V m c main_v0 : S1x4096.Idx → EReal) = shapeCast S1x4096 (Bv m c) shapeCasts_S4096_S1x4096 := by
  dsimp only [Gen.V, Gen.hostOps0]
  after_results
  rfl

/-- The bias tile. -/
theorem bt_apply (c : Dev nD) (t : Fin cfg0.N) (z : Fin 1) (n : Fin 1024) :
    bt m c t (ix2 z n) = Bv m c (ix1 (colOf t n)) := by
  obtain ⟨-, -, -, -, -, -, -, -, e0, e1, -⟩ := where_blocks t
  have hzv := z.isLt
  unfold bt iblk
  rw [View.read_apply]
  show (V m c main_v0 : S1x4096.Idx → EReal) _ = _
  rw [bias_row]
  refine (shapeCast_apply _ shapeCasts_S4096_S1x4096 _ (ix1 (colOf t n)) ?_).trans rfl
  rw [Shape.rowMajor_val_one, Shape.rowMajor_val_two]
  show 1024 * (t.val / 32 % 4) + n.val = (win0_4.index t (0 : Fin 2) * 1 + 1 * z.val) * 4096 + (win0_4.index t (1 : Fin 2) * 1024 + 1 * n.val)
  rw [e0, e1]; omega

/-! ## One point's effect on the running sum -/

/-- The first point of a run restarts the sum from zero. -/
theorem first_point (c : Dev nD) (t : Fin cfg0.N) (h0 : t.val % 32 = 0) (h1 : ¬t.val % 32 = 31) :
    (outsAt0 m c t.val t.isLt).2
      = k0_pay3 (F := Ideal) (grid0.coords t) (xst m c t) (wst m c t) (xt m c t) (wt m c t) (k0_pay2 (F := Ideal)) := by
  rw [outsAt0_A m c t h0 h1]
  dsimp only
  exact Pieces.scratch_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) _ _
    (iblk m c 0 t) (iblk m c 1 t) (iblk m c 2 t) (iblk m c 3 t) (iblk m c 4 t)

/-- Every other point adds its block to what the point before left. -/
theorem next_point (c : Dev nD) (t : Fin cfg0.N) (h0 : ¬t.val % 32 = 0) :
    (outsAt0 m c t.val t.isLt).2
      = k0_pay3 (F := Ideal) (grid0.coords t) (xst m c t) (wst m c t) (xt m c t) (wt m c t)
          (outsAt0 m c (t.val - 1) (Nat.lt_of_le_of_lt (Nat.sub_le _ _) t.isLt)).2 := by
  by_cases h1 : t.val % 32 = 31
  · rw [outsAt0_C m c t h0 h1]
    dsimp only
    exact Pieces.scratch_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) _ _
      (iblk m c 0 t) (iblk m c 1 t) (iblk m c 2 t) (iblk m c 3 t) (iblk m c 4 t)
      (outsAt0 m c (t.val - 1) (Nat.lt_of_le_of_lt (Nat.sub_le _ _) t.isLt)).2
  · rw [outsAt0_B m c t h0 h1]
    dsimp only
    exact Pieces.scratch_mid (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) _ _
      (iblk m c 0 t) (iblk m c 1 t) (iblk m c 2 t) (iblk m c 3 t) (iblk m c 4 t)
      (outsAt0 m c (t.val - 1) (Nat.lt_of_le_of_lt (Nat.sub_le _ _) t.isLt)).2

/-- The last point of a run writes back the sum it has just finished, plus the bias. -/
theorem last_point_out (c : Dev nD) (t : Fin cfg0.N) (h0 : ¬t.val % 32 = 0) (h1 : t.val % 32 = 31) :
    (outsAt0 m c t.val t.isLt).1 = k0_pay1 (F := Ideal) (outsAt0 m c t.val t.isLt).2 (bt m c t) := by
  rw [next_point m c t h0, outsAt0_C m c t h0 h1]
  dsimp only
  exact Pieces.out_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) _ _
    (iblk m c 0 t) (iblk m c 1 t) (iblk m c 2 t) (iblk m c 3 t) (iblk m c 4 t)
    (outsAt0 m c (t.val - 1) (Nat.lt_of_le_of_lt (Nat.sub_le _ _) t.isLt)).2

/-- The 128 scaled products a point adds at (r, n) are the terms of the result's entry that belong to the point's
    contraction block. -/
theorem block_terms (c : Dev nD) (t : Fin cfg0.N) (r n : Fin 1024) :
    (∑ q : Fin 128, (xt m c t (ix2 r q) * xst m c t (ix2 r (Payload.blockOf (grid0.coords t))))
        * (wt m c t (ix2 n q) * wst m c t (ix2 ⟨n.val / 128, by have := n.isLt; omega⟩ (Payload.blockOf (grid0.coords t)))))
      = ∑ q : Fin 128, term (X m c) (XS m c) (Wm m c) (WS m c) (rowOf t r) (colOf t n) (128 * (t.val % 32) + q.val) := by
  obtain ⟨-, -, -, -, -, -, -, -, -, -, -, -, ek⟩ := where_blocks t
  have hn := n.isLt
  refine Finset.sum_congr rfl fun q _ => ?_
  have hq := q.isLt
  rw [term_of_lt _ _ _ _ _ _ _ (by omega), xt_apply, wt_apply, xst_apply, wst_apply]
  have eb : Payload.blockOf (grid0.coords t) = (⟨(128 * (t.val % 32) + q.val) / 128, by omega⟩ : Fin 32) :=
    Fin.ext (by show (grid0.coords t 2).val = (128 * (t.val % 32) + q.val) / 128; rw [ek]; omega)
  have ea : (⟨8 * (t.val / 32 % 4) + n.val / 128, by omega⟩ : Fin 32) = ⟨(colOf t n).val / 128, by have := (colOf t n).isLt; omega⟩ :=
    Fin.ext (by show 8 * (t.val / 32 % 4) + n.val / 128 = (1024 * (t.val / 32 % 4) + n.val) / 128; omega)
  rw [eb, ea]

/-! ## The running sum after any point -/

/-- After point n the running sum holds, at (r, s), the first 128·(n mod 32 + 1) terms of the entry of the result it
    belongs to: by induction on the point. -/
theorem sum_after (c : Dev nD) : ∀ (n : ℕ) (hn : n < cfg0.N) (r s : Fin 1024),
    (outsAt0 m c n hn).2 (ix2 r s)
      = firstTerms (X m c) (XS m c) (Wm m c) (WS m c) (rowOf ⟨n, hn⟩ r) (colOf ⟨n, hn⟩ s) (128 * (n % 32 + 1)) := by
  intro n
  induction n with
  | zero =>
    intro hn r s
    refine (congrFun (first_point m c ⟨0, hn⟩ rfl (by show ¬(0 : ℕ) % 32 = 31; decide)) (ix2 r s)).trans ?_
    refine (Payload.step_apply (grid0.coords ⟨0, hn⟩) (xst m c ⟨0, hn⟩) (wst m c ⟨0, hn⟩) (xt m c ⟨0, hn⟩) (wt m c ⟨0, hn⟩)
      (k0_pay2 (F := Ideal)) r s).trans ?_
    rw [Payload.reset_apply, zero_add, block_terms]
    show _ = firstTerms _ _ _ _ _ _ (128 * (0 + 1))
    rw [firstTerms_block, Nat.mul_zero, firstTerms_zero, zero_add]
    rfl
  | succ n ih =>
    intro hn r s
    have hlt : n + 1 < 1024 := lt_of_lt_of_eq hn hN
    by_cases h0 : (n + 1) % 32 = 0
    · refine (congrFun (first_point m c ⟨n + 1, hn⟩ h0 (by show ¬(n + 1) % 32 = 31; omega)) (ix2 r s)).trans ?_
      refine (Payload.step_apply (grid0.coords ⟨n + 1, hn⟩) (xst m c ⟨n + 1, hn⟩) (wst m c ⟨n + 1, hn⟩)
        (xt m c ⟨n + 1, hn⟩) (wt m c ⟨n + 1, hn⟩) (k0_pay2 (F := Ideal)) r s).trans ?_
      rw [Payload.reset_apply, zero_add, block_terms]
      show ∑ q : Fin 128, term _ _ _ _ _ _ (128 * ((n + 1) % 32) + q.val) = _
      rw [h0, firstTerms_block, Nat.mul_zero, firstTerms_zero, zero_add]
    · refine (congrFun (next_point m c ⟨n + 1, hn⟩ h0) (ix2 r s)).trans ?_
      refine (Payload.step_apply (grid0.coords ⟨n + 1, hn⟩) (xst m c ⟨n + 1, hn⟩) (wst m c ⟨n + 1, hn⟩)
        (xt m c ⟨n + 1, hn⟩) (wt m c ⟨n + 1, hn⟩) _ r s).trans ?_
      rw [block_terms]
      show (outsAt0 m c n (Nat.lt_of_succ_lt hn)).2 (ix2 r s) + ∑ q : Fin 128, term _ _ _ _ _ _ (128 * ((n + 1) % 32) + q.val) = _
      rw [ih (Nat.lt_of_succ_lt hn) r s]
      have er : rowOf ⟨n, Nat.lt_of_succ_lt hn⟩ r = rowOf ⟨n + 1, hn⟩ r :=
        Fin.ext (by show 1024 * (n / 128) + r.val = 1024 * ((n + 1) / 128) + r.val; omega)
      have ec : colOf ⟨n, Nat.lt_of_succ_lt hn⟩ s = colOf ⟨n + 1, hn⟩ s :=
        Fin.ext (by show 1024 * (n / 32 % 4) + s.val = 1024 * ((n + 1) / 32 % 4) + s.val; omega)
      rw [er, ec, show (n + 1) % 32 = n % 32 + 1 by omega, firstTerms_block _ _ _ _ _ _ (n % 32 + 1)]

/-! ## The tiles written back, and the array -/

/-- What a point that writes back writes is its tile of the result. -/
theorem written_back (c : Dev nD) (t : Fin cfg0.N) (hf : (cfg0.win 5).flush t = true) :
    (dats m 0 c).flushed 5 t = ((cfg0.win 5).blk t).view.read (Elt Ideal) (result m c) := by
  have h31 : t.val % 32 = 31 := (flush0_5 t).mp hf
  have h0 : ¬t.val % 32 = 0 := by omega
  obtain ⟨-, -, -, -, -, -, -, -, -, -, e0, e1, -⟩ := where_blocks t
  rw [Value.flushed5, last_point_out m c t h0 h31]
  funext j
  obtain ⟨r, s, rfl⟩ : ∃ (r s : Fin 1024), j = ix2 r s := ⟨j 0, j 1, eq_ix2 j⟩
  show k0_pay1 (F := Ideal) (outsAt0 m c t.val t.isLt).2 (bt m c t) (ix2 r s)
    = result m c (((cfg0.win 5).blk t).view.emb (ix2 r s))
  have e : ((cfg0.win 5).blk t).view.emb (ix2 r s) = ix2 (rowOf t r) (colOf t s) := by
    funext a
    apply Fin.ext
    match a with
    | ⟨0, _⟩ => show win0_5.index t (0 : Fin 2) * 1024 + 1 * r.val = 1024 * (t.val / 128) + r.val; rw [e0]; omega
    | ⟨1, _⟩ => show win0_5.index t (1 : Fin 2) * 1024 + 1 * s.val = 1024 * (t.val / 32 % 4) + s.val; rw [e1]; omega
  rw [e, Payload.biased_apply, sum_after m c t.val t.isLt r s, bt_apply, h31]
  rfl

/-- An entry of the array is in point t's tile iff each coordinate is in the tile's range. -/
theorem in_tile (t : Fin cfg0.N) (i : S8192x4096.Idx) :
    i ∈ ((cfg0.win 5).blk t).view.set ↔ ∀ a : Fin 2, win0_5.index t a * S1024x1024.size a ≤ (i a).val
      ∧ (i a).val < win0_5.index t a * S1024x1024.size a + S1024x1024.size a := by
  show i ∈ ((View.whole main_v1).slice (win0_5.rect t)).set ↔ _
  rw [View.set_slice_whole, Rect.mem_set_unit]
  exact Iff.rfl

/-- Every entry lies in the tile of the last point of its tile's run. -/
theorem covered (i : S8192x4096.Idx) :
    ∃ t : Fin cfg0.N, (cfg0.win 5).flush t = true ∧ i ∈ ((cfg0.win 5).blk t).view.set := by
  have hi0 : (i 0).val < 8192 := (i 0).isLt
  have hi1 : (i 1).val < 4096 := (i 1).isLt
  let t : Fin cfg0.N := ⟨128 * ((i 0).val / 1024) + 32 * ((i 1).val / 1024) + 31, by rw [hN]; omega⟩
  have htv : t.val = 128 * ((i 0).val / 1024) + 32 * ((i 1).val / 1024) + 31 := rfl
  obtain ⟨-, -, -, -, -, -, -, -, -, -, e0, e1, -⟩ := where_blocks t
  refine ⟨t, (flush0_5 t).mpr (by rw [htv]; omega), ?_⟩
  rw [in_tile]
  intro a
  match a with
  | ⟨0, _⟩ =>
    show win0_5.index t (0 : Fin 2) * 1024 ≤ (i 0).val ∧ (i 0).val < win0_5.index t (0 : Fin 2) * 1024 + 1024
    rw [e0, htv]; omega
  | ⟨1, _⟩ =>
    show win0_5.index t (1 : Fin 2) * 1024 ≤ (i 1).val ∧ (i 1).val < win0_5.index t (1 : Fin 2) * 1024 + 1024
    rw [e1, htv]; omega

/-- So after the run the array is the result. -/
theorem array_after (c : Dev nD) : (dats m 0 c).arrAt 5 cfg0.N = result m c :=
  (dats m 0 c).arrAt_eq_of_cover 5 (result m c) (written_back m c) covered

/-- The kernel's run: it ends with the result array at the block-scaled product with bias of the five arguments,
    which it leaves unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (array_after m c), (h c).2⟩) (Value.run_blocks m ρ)

end Cert.KernelIdeal.Blocks

end
-- ==== Proof.Reference.lean ====
/-
  The reference computes the same function.

  The reference repeats every entry of X's scale table 128 times along its row, repeats every entry of W's scale
  table 128 times down and 128 times along, multiplies X and W by the enlarged tables entry by entry, contracts the
  columns of the two products in one sum of 4096 terms, and adds the bias to every row. Read at entry (m, n): the
  enlarged X-table at (m, k) is the table at (m, k / 128), the enlarged W-table at (n, k) is the table at
  (n / 128, k / 128), so the k-th summand is the k-th term of the block-scaled product, and the bias added is that of
  column n.
-/
import proofs.«124026_j10084583211483_1_alg».proof.Proof.Gen.ReferenceIdeal.Read
import proofs.«124026_j10084583211483_1_alg».proof.Proof.Spec
import Idealize.ShloMosaic.Lib.ValueIdx
import Idealize.ShloMosaic.PureOps.Ideal.Laws

noncomputable section

open Idealize.ShloMosaic Idealize.ShloMosaic.TcCoe Idealize.SL.Sem
open Idealize.ShloMosaic.Pipeline (Dat)

open scoped BigOperators

namespace Cert.ReferenceIdeal.RefValue

open Cert.ReferenceIdeal Cert.ReferenceIdeal.Read Idealize.ShloMosaic.ValueIdx Cert.BlockScaled

/-- The reference's result, as a function of its five arguments, is the block-scaled product with bias. -/
theorem reference_eq (x0 : (⟨S8192x4096, .f32⟩ : BufTy).Contents (Elt Ideal)) (x1 : (⟨S8192x32, .f32⟩ : BufTy).Contents (Elt Ideal))
    (x2 : (⟨S4096x4096, .f32⟩ : BufTy).Contents (Elt Ideal)) (x3 : (⟨S32x32, .f32⟩ : BufTy).Contents (Elt Ideal))
    (x4 : (⟨S4096, .f32⟩ : BufTy).Contents (Elt Ideal)) :
    val_main_v11 (F := Ideal) x0 x1 x2 x3 x4 = gemmBias x0 x1 x2 x3 x4 := by
  funext i
  obtain ⟨mi, ni, rfl⟩ : ∃ (mi : Fin 8192) (ni : Fin 4096), i = ix2 mi ni := ⟨i 0, i 1, eq_ix2 i⟩
  have hm := mi.isLt
  have hn := ni.isLt
  rw [val_main_v11_apply, val_main_v8_apply, val_main_v10_apply, val_main_v9_apply]
  show (∑ k : Fin 4096, val_main_v6 (F := Ideal) x0 x1 (lidx_main_v8 (ix2 mi ni) k) * val_main_v7 (F := Ideal) x2 x3 (ridx_main_v8 (ix2 mi ni) k))
      + x4 (idx_main_v9 (idx_main_v10 (ix2 mi ni)))
    = firstTerms x0 x1 x2 x3 mi ni 4096 + x4 (ix1 ni)
  congr 1
  · refine sum_columns x0 x1 x2 x3 mi ni _ fun k => ?_
    have hk := k.isLt
    rw [term_of_lt _ _ _ _ _ _ _ k.isLt, val_main_v6_apply, val_main_v7_apply, val_main_v1_apply, val_main_v0_apply,
      val_main_v5_apply, val_main_v4_apply, val_main_v3_apply, val_main_v2_apply]
    have el : lidx_main_v8 (ix2 mi ni) k = ix2 mi k := funext fun a => Fin.ext (by
      match a with
      | ⟨0, _⟩ => rfl
      | ⟨1, _⟩ => rfl)
    have er : ridx_main_v8 (ix2 mi ni) k = ix2 ni k := funext fun a => Fin.ext (by
      match a with
      | ⟨0, _⟩ => rfl
      | ⟨1, _⟩ => rfl)
    have e1 : idx_main_v0 (idx_main_v1 (ix2 mi k)) = ix2 mi (⟨k.val / 128, by omega⟩ : Fin 32) := funext fun a => Fin.ext (by
      match a with
      | ⟨0, _⟩ => show (mi.val * 4096 + k.val) / 4096 = mi.val; omega
      | ⟨1, _⟩ => show (mi.val * 4096 + k.val) / 128 % 32 = k.val / 128; omega)
    have e3 : idx_main_v2 (idx_main_v3 (idx_main_v4 (idx_main_v5 (ix2 ni k))))
        = ix2 (⟨ni.val / 128, by omega⟩ : Fin 32) (⟨k.val / 128, by omega⟩ : Fin 32) := funext fun a => Fin.ext (by
      match a with
      | ⟨0, _⟩ => show ((ni.val * 4096 + k.val) / 4096 * 32 + (ni.val * 4096 + k.val) / 128 % 32) / 4096 = ni.val / 128; omega
      | ⟨1, _⟩ => show ((ni.val * 4096 + k.val) / 4096 * 32 + (ni.val * 4096 + k.val) / 128 % 32) % 32 = k.val / 128; omega)
    rw [el, er, e1, e3]
    rfl
  · congr 1
    funext a
    match a with
    | ⟨0, _⟩ => rfl

end Cert.ReferenceIdeal.RefValue

end
-- ==== Proof.lean ====
/-
  A block-scaled matrix product with bias, computed by a tiled kernel and by a plain reference: the two agree over the
  extended reals.

  Both programs take X (8192 × 4096) with one scale per row and per block of 128 columns, W (4096 × 4096) with one
  scale per 128 × 128 block, and a bias of length 4096, and return

      Y[m, n] = ( ∑ k < 4096, (X[m,k] · XS[m, k/128]) · (W[n,k] · WS[n/128, k/128]) ) + B[n].

  The reference enlarges the scale tables, multiplies, and contracts all 4096 columns in one sum. The kernel walks a
  grid of 8 × 4 output tiles and, for each, the 32 blocks of 128 columns: at each step it picks the block's column of
  either scale table (a sum against an indicator row), scales the two input tiles, and adds their 128-term product
  to a running sum kept across the 32 steps, which is reset at the first step and written out with the bias after
  the last. The two results differ only in how the 4096 terms are grouped and ordered, and addition of extended reals
  is commutative and associative; the picked column uses only that a multiple of zero is zero and a multiple of one
  is itself. The precondition (finite inputs) is not needed for the values.

  The files: the result and the two groupings of its sum (Spec); the values each grid point stores, as arithmetic
  terms of its tiles (Pieces) and entry by entry (Payload); the running sum after each point and the array after the
  run (Blocks); the reference's result entry by entry (Reference). The three runs (termination, no fault, arguments
  unchanged) are the generated frame certificates of the two kernels and the generated run of the reference; the
  idealized kernel is the kernel's own text, so there is nothing to preserve.
-/
import proofs.«124026_j10084583211483_1_alg».proof.Defs
import proofs.«124026_j10084583211483_1_alg».proof.Proof.Gen.Kernel
import proofs.«124026_j10084583211483_1_alg».proof.Proof.Gen.Kernel.Skeleton
import proofs.«124026_j10084583211483_1_alg».proof.Proof.Gen.Kernel.Launch
import proofs.«124026_j10084583211483_1_alg».proof.Proof.Gen.Kernel.Points
import proofs.«124026_j10084583211483_1_alg».proof.Proof.Gen.Kernel.Frame
import proofs.«124026_j10084583211483_1_alg».proof.Proof.Gen.KernelIdeal
import proofs.«124026_j10084583211483_1_alg».proof.Proof.Gen.KernelIdeal.Skeleton
import proofs.«124026_j10084583211483_1_alg».proof.Proof.Gen.KernelIdeal.Launch
import proofs.«124026_j10084583211483_1_alg».proof.Proof.Gen.KernelIdeal.Points
import proofs.«124026_j10084583211483_1_alg».proof.Proof.Gen.KernelIdeal.Frame
import proofs.«124026_j10084583211483_1_alg».proof.Proof.Gen.ReferenceIdeal
import proofs.«124026_j10084583211483_1_alg».proof.Proof.Gen.Pre_finite_inputs
import proofs.«124026_j10084583211483_1_alg».proof.Proof.Gen.KernelIdeal.Value
import proofs.«124026_j10084583211483_1_alg».proof.Proof.Gen.ReferenceIdeal.Run
import proofs.«124026_j10084583211483_1_alg».proof.Proof.Gen.ReferenceIdeal.Read
import proofs.«124026_j10084583211483_1_alg».proof.Proof.Blocks
import proofs.«124026_j10084583211483_1_alg».proof.Proof.Reference
import Idealize.ShloMosaic.Adequacy
import Idealize.ShloMosaic.Init

noncomputable section

namespace Cert.Proof

open Idealize.ShloMosaic Idealize.ShloMosaic.TcCoe Idealize.SL.Sem

/-- The kernel runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments unchanged: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealized kernel is the kernel's own text read over the extended reals: no rewrite to account for. -/
theorem preserves : Cert.preserves_Kernel_KernelIdeal := trivial

/-- From arguments that agree, the kernel ends at the block-scaled product with bias of its arguments, and so does
    the reference. -/
theorem algebraic : Cert.algebraic_KernelIdeal_ReferenceIdeal := by
  intro m ρ m' ρ' _ hagree
  refine ⟨fun c => Cert.KernelIdeal.Blocks.result m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, Cert.ReferenceIdeal.RefValue.reference_eq,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
